-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x256x2048 : Shape := ⟨3, ![8, 256, 2048]⟩
abbrev S8x16x2048 : Shape := ⟨3, ![8, 16, 2048]⟩
abbrev S2048 : Shape := ⟨1, ![2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x16x2048 : S_.BroadcastsInDim S8x16x2048 (![] : Fin 0 → Fin S8x16x2048.rank)
  reducesTo_S8x16x2048_S_d0_1_2 : S8x16x2048.ReducesTo [0, 1, 2] S_

variable [Facts]

def fn {F : FTy → Type} [FloatOps F] (main_arg0 : FVec F S8192x2048 .f32) (main_arg1 : IVec S8x256x2048 32) (main_arg2 : FVec F S8x16x2048 .f32) (main_arg3 : IVec S8x16x2048 32) (main_arg4 : IVec S2048 32) (main_arg5 : IVec S8192 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x16x2048 .f32 := Host.absf main_arg2
  let main_cst_0 : FVec F S_ .f32 := constant S_ .f32 0x7F800000#32
  let main_v5 : FVec F S8x16x2048 .f32 := broadcastInDim S8x16x2048 ![] bcast_S_S8x16x2048 main_cst_0
  let main_v6 : IVec S8x16x2048 1 := cmpf .olt main_v4 main_v5
  let main_c_1 : IVec S_ 1 := constantI S_ 1 1#1
  let main_v7 : IVec S_ 1 := (fun x v => Host.reduce IntOp.andi x v reducesTo_S8x16x2048_S_d0_1_2 h_S_) main_v6 main_c_1
  let main_v8 : IVec S_ 1 := andi main_v3 main_v7
  main_v8
-- ==== Kernel.lean ====
abbrev S8192x2048 : Shape := ⟨2, ![8192, 2048]⟩
abbrev S8x256x2048 : Shape := ⟨3, ![8, 256, 2048]⟩
abbrev S8x16x2048 : Shape := ⟨3, ![8, 16, 2048]⟩
abbrev S2048 : Shape := ⟨1, ![2048]⟩
abbrev S8192 : Shape := ⟨1, ![8192]⟩
abbrev S8 : Shape := ⟨1, ![8]⟩
abbrev S_ : Shape := ⟨0, ![]⟩
abbrev S8x256x1x2048 : Shape := ⟨4, ![8, 256, 1, 2048]⟩
abbrev S1x1x8x1 : Shape := ⟨4, ![1, 1, 8, 1]⟩
abbrev S8x256x8x2048 : Shape := ⟨4, ![8, 256, 8, 2048]⟩
abbrev S8x2048x2048 : Shape := ⟨3, ![8, 2048, 2048]⟩
abbrev S2048x1 : Shape := ⟨2, ![2048, 1]⟩
abbrev S8192x1 : Shape := ⟨2, ![8192, 1]⟩
abbrev S512x2048 : Shape := ⟨2, ![512, 2048]⟩
abbrev S512x1 : Shape := ⟨2, ![512, 1]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 45
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8x256x2048, .i32⟩
  | .hbm, ⟨2, _⟩ => ⟨S8x16x2048, .f32⟩
  | .hbm, ⟨3, _⟩ => ⟨S8x16x2048, .i32⟩
  | .hbm, ⟨4, _⟩ => ⟨S2048, .i32⟩
  | .hbm, ⟨5, _⟩ => ⟨S8192, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8x256x1x2048, .i32⟩
  | .hbm, ⟨11, _⟩ => ⟨S1x1x8x1, .i32⟩
  | .hbm, ⟨12, _⟩ => ⟨S8x256x8x2048, .i32⟩
  | .hbm, ⟨13, _⟩ => ⟨S8x256x8x2048, .i32⟩
  | .hbm, ⟨14, _⟩ => ⟨S8x256x8x2048, .i32⟩
  | .hbm, ⟨15, _⟩ => ⟨S_, .i32⟩
  | .hbm, ⟨16, _⟩ => ⟨S8x256x8x2048, .i32⟩
  | .hbm, ⟨17, _⟩ => ⟨S8x256x8x2048, .i32⟩
  | .hbm, ⟨18, _⟩ => ⟨S8x2048x2048, .i32⟩
  | .hbm, ⟨19, _⟩ => ⟨S8x2048x2048, .f32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S8x2048x2048, .f32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S8x2048x2048, .i32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .bf16⟩
  | .hbm, ⟨42, _⟩ => ⟨S8192x2048, .bf16⟩
  | .hbm, ⟨43, _⟩ => ⟨S8192x1, .i32⟩
  | .hbm, ⟨44, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x1, .i32⟩
  | .local _ .vmem, ⟨3, _⟩ => ⟨S512x1, .i32⟩
  | .local _ .vmem, ⟨4, _⟩ => ⟨S1x2048x1024, .bf16⟩
  | .local _ .vmem, ⟨5, _⟩ => ⟨S1x2048x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8 : S_.BroadcastsInDim S8 (![] : Fin 0 → Fin S8.rank)
  bcast_S8x256x2048_S8x256x1x2048_0_1_3 : S8x256x2048.BroadcastsInDim S8x256x1x2048 (![0, 1, 3] : Fin 3 → Fin S8x256x1x2048.rank)
  bcast_S8_S1x1x8x1_2 : S8.BroadcastsInDim S1x1x8x1 (![2] : Fin 1 → Fin S1x1x8x1.rank)
  bcast_S8x256x1x2048_S8x256x8x2048_0_1_2_3 : S8x256x1x2048.BroadcastsInDim S8x256x8x2048 (![0, 1, 2, 3] : Fin 4 → Fin S8x256x8x2048.rank)
  bcast_S1x1x8x1_S8x256x8x2048_0_1_2_3 : S1x1x8x1.BroadcastsInDim S8x256x8x2048 (![0, 1, 2, 3] : Fin 4 → Fin S8x256x8x2048.rank)
  bcast_S_S8x256x8x2048 : S_.BroadcastsInDim S8x256x8x2048 (![] : Fin 0 → Fin S8x256x8x2048.rank)
  shapeCasts_S8x256x8x2048_S8x2048x2048 : S8x256x8x2048.ShapeCasts S8x2048x2048
  bcast_S_S2048 : S_.BroadcastsInDim S2048 (![] : Fin 0 → Fin S2048.rank)
  bcast_S2048_S2048x1_0 : S2048.BroadcastsInDim S2048x1 (![0] : Fin 1 → Fin S2048x1.rank)
  bitsLt_bf16_f32 : FTy.bits .bf16 < FTy.bits .f32
  shapeCasts_S8192_S8192x1 : S8192.ShapeCasts S8192x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  natLt_1_32 : 1 < 32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S512x1_S512x2048 : S512x1.Broadcasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  gather_S8x16x2048_S2048x1_S8x2048x2048_02_1_n_n_1_1_812048_wf : GatherDims.WF S8x16x2048 S2048x1 S8x2048x2048 [0, 2] [1] [] [1] [] 1 ![8, 1, 2048]
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x2048.size a
  hwx0_2 : ∀ i : grid0.Coords, EltTy.bits .bf16 = 32 ∨ (Rect.block (s := S8x2048x2048) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x2048.size a
  hwx0_3 : ∀ i : grid0.Coords, EltTy.bits .f32 = 32 ∨ (Rect.block (s := S8192x2048) S512x1024.size (cc0_transform_3 i) (hinb0_3 i)).WholeWords (EltTy.packing .f32)

variable [Facts₀]

def gather_S8x16x2048_S2048x1_S8x2048x2048_02_1_n_n_1_1_812048 : GatherDims S8x16x2048 S2048x1 S8x2048x2048 where
  offsetDims := [0, 2]
  collapsedSliceDims := [1]
  operandBatchingDims := []
  startIndicesBatchingDims := []
  startIndexMap := [1]
  indexVectorDim := 1
  sliceSizes := ![8, 1, 2048]
  wf := gather_S8x16x2048_S2048x1_S8x2048x2048_02_1_n_n_1_1_812048_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v30) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x256x2048 : Shape := ⟨3, ![8, 256, 2048]⟩
abbrev S8x16x2048 : Shape := ⟨3, ![8, 16, 2048]⟩
abbrev S2048 : Shape := ⟨1, ![2048]⟩
abbrev S8192 : Shape := ⟨1, ![8192]⟩
abbrev S8 : Shape := ⟨1, ![8]⟩
abbrev S_ : Shape := ⟨0, ![]⟩
abbrev S8x256x1x2048 : Shape := ⟨4, ![8, 256, 1, 2048]⟩
abbrev S1x1x8x1 : Shape := ⟨4, ![1, 1, 8, 1]⟩
abbrev S8x256x8x2048 : Shape := ⟨4, ![8, 256, 8, 2048]⟩
abbrev S8x2048x2048 : Shape := ⟨3, ![8, 2048, 2048]⟩
abbrev S2048x1 : Shape := ⟨2, ![2048, 1]⟩
abbrev S8192x1 : Shape := ⟨2, ![8192, 1]⟩
abbrev S1x2048x2048 : Shape := ⟨3, ![1, 2048, 2048]⟩
abbrev S2048x2048 : Shape := ⟨2, ![2048, 2048]⟩

abbrev nBuf : Space → Nat
  | .hbm => 131
  | .vmem => 0
  | .smem => 0
  | _ => 0

abbrev hbmTy0_0 (i : Nat) : BufTy := match i % 128 with
  | 0 => ⟨S8192x2048, .f32⟩
  | 1 => ⟨S8x256x2048, .i32⟩
  | 2 => ⟨S8x16x2048, .f32⟩
  | 3 => ⟨S8x16x2048, .i32⟩
  | 4 => ⟨S2048, .i32⟩
  | 5 => ⟨S8192, .i32⟩
  | 6 => ⟨S8, .i32⟩
  | 7 => ⟨S_, .i32⟩
  | 8 => ⟨S8, .i32⟩
  | 9 => ⟨S8, .i32⟩
  | 10 => ⟨S8x256x1x2048, .i32⟩
  | 11 => ⟨S1x1x8x1, .i32⟩
  | 12 => ⟨S8x256x8x2048, .i32⟩
  | 13 => ⟨S8x256x8x2048, .i32⟩
  | 14 => ⟨S8x256x8x2048, .i32⟩
  | 15 => ⟨S_, .i32⟩
  | 16 => ⟨S8x256x8x2048, .i32⟩
  | 17 => ⟨S8x256x8x2048, .i32⟩
  | 18 => ⟨S8x2048x2048, .i32⟩
  | 19 => ⟨S8x2048x2048, .f32⟩
  | 20 => ⟨S_, .i32⟩
  | 21 => ⟨S2048, .i32⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S8x2048x2048, .f32⟩
  | 29 => ⟨S_, .i32⟩
  | 30 => ⟨S2048, .i32⟩
  | 31 => ⟨S2048, .i1⟩
  | 32 => ⟨S_, .i32⟩
  | 33 => ⟨S2048, .i32⟩
  | 34 => ⟨S2048, .i32⟩
  | 35 => ⟨S2048, .i32⟩
  | 36 => ⟨S2048x1, .i32⟩
  | 37 => ⟨S8x2048x2048, .i32⟩
  | 38 => ⟨S8x2048x2048, .f32⟩
  | 39 => ⟨S8x2048x2048, .f32⟩
  | 40 => ⟨S8x2048x2048, .f32⟩
  | 41 => ⟨S_, .f32⟩
  | 42 => ⟨S8192x2048, .f32⟩
  | 43 => ⟨S_, .i32⟩
  | 44 => ⟨S8192, .i32⟩
  | 45 => ⟨S8192, .i1⟩
  | 46 => ⟨S8192, .f32⟩
  | 47 => ⟨S8192x1, .f32⟩
  | 48 => ⟨S8192x2048, .f32⟩
  | 49 => ⟨S8192x2048, .f32⟩
  | 50 => ⟨S1x2048x2048, .f32⟩
  | 51 => ⟨S2048x2048, .f32⟩
  | 52 => ⟨S8192x2048, .f32⟩
  | 53 => ⟨S8192x2048, .f32⟩
  | 54 => ⟨S_, .i32⟩
  | 55 => ⟨S8192, .i32⟩
  | 56 => ⟨S8192, .i1⟩
  | 57 => ⟨S8192, .f32⟩
  | 58 => ⟨S8192x1, .f32⟩
  | 59 => ⟨S8192x2048, .f32⟩
  | 60 => ⟨S8192x2048, .f32⟩
  | 61 => ⟨S1x2048x2048, .f32⟩
  | 62 => ⟨S2048x2048, .f32⟩
  | 63 => ⟨S8192x2048, .f32⟩
  | 64 => ⟨S8192x2048, .f32⟩
  | 65 => ⟨S_, .i32⟩
  | 66 => ⟨S8192, .i32⟩
  | 67 => ⟨S8192, .i1⟩
  | 68 => ⟨S8192, .f32⟩
  | 69 => ⟨S8192x1, .f32⟩
  | 70 => ⟨S8192x2048, .f32⟩
  | 71 => ⟨S8192x2048, .f32⟩
  | 72 => ⟨S1x2048x2048, .f32⟩
  | 73 => ⟨S2048x2048, .f32⟩
  | 74 => ⟨S8192x2048, .f32⟩
  | 75 => ⟨S8192x2048, .f32⟩
  | 76 => ⟨S_, .i32⟩
  | 77 => ⟨S8192, .i32⟩
  | 78 => ⟨S8192, .i1⟩
  | 79 => ⟨S8192, .f32⟩
  | 80 => ⟨S8192x1, .f32⟩
  | 81 => ⟨S8192x2048, .f32⟩
  | 82 => ⟨S8192x2048, .f32⟩
  | 83 => ⟨S1x2048x2048, .f32⟩
  | 84 => ⟨S2048x2048, .f32⟩
  | 85 => ⟨S8192x2048, .f32⟩
  | 86 => ⟨S8192x2048, .f32⟩
  | 87 => ⟨S_, .i32⟩
  | 88 => ⟨S8192, .i32⟩
  | 89 => ⟨S8192, .i1⟩
  | 90 => ⟨S8192, .f32⟩
  | 91 => ⟨S8192x1, .f32⟩
  | 92 => ⟨S8192x2048, .f32⟩
  | 93 => ⟨S8192x2048, .f32⟩
  | 94 => ⟨S1x2048x2048, .f32⟩
  | 95 => ⟨S2048x2048, .f32⟩
  | 96 => ⟨S8192x2048, .f32⟩
  | 97 => ⟨S8192x2048, .f32⟩
  | 98 => ⟨S_, .i32⟩
  | 99 => ⟨S8192, .i32⟩
  | 100 => ⟨S8192, .i1⟩
  | 101 => ⟨S8192, .f32⟩
  | 102 => ⟨S8192x1, .f32⟩
  | 103 => ⟨S8192x2048, .f32⟩
  | 104 => ⟨S8192x2048, .f32⟩
  | 105 => ⟨S1x2048x2048, .f32⟩
  | 106 => ⟨S2048x2048, .f32⟩
  | 107 => ⟨S8192x2048, .f32⟩
  | 108 => ⟨S8192x2048, .f32⟩
  | 109 => ⟨S_, .i32⟩
  | 110 => ⟨S8192, .i32⟩
  | 111 => ⟨S8192, .i1⟩
  | 112 => ⟨S8192, .f32⟩
  | 113 => ⟨S8192x1, .f32⟩
  | 114 => ⟨S8192x2048, .f32⟩
  | 115 => ⟨S8192x2048, .f32⟩
  | 116 => ⟨S1x2048x2048, .f32⟩
  | 117 => ⟨S2048x2048, .f32⟩
  | 118 => ⟨S8192x2048, .f32⟩
  | 119 => ⟨S8192x2048, .f32⟩
  | 120 => ⟨S_, .i32⟩
  | 121 => ⟨S8192, .i32⟩
  | 122 => ⟨S8192, .i1⟩
  | 123 => ⟨S8192, .f32⟩
  | 124 => ⟨S8192x1, .f32⟩
  | 125 => ⟨S8192x2048, .f32⟩
  | 126 => ⟨S8192x2048, .f32⟩
  | 127 => ⟨S1x2048x2048, .f32⟩
  | _ => ⟨S8192x2048, .f32⟩

abbrev hbmTy0_1 (i : Nat) : BufTy := match i % 128 with
  | 0 => ⟨S2048x2048, .f32⟩
  | 1 => ⟨S8192x2048, .f32⟩
  | 2 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_9 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_10 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_c_11 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_c_12 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8x256x2048_S8x256x1x2048_0_1_3 : S8x256x2048.BroadcastsInDim S8x256x1x2048 (![0, 1, 3] : Fin 3 → Fin S8x256x1x2048.rank)
  bcast_S8_S1x1x8x1_2 : S8.BroadcastsInDim S1x1x8x1 (![2] : Fin 1 → Fin S1x1x8x1.rank)
  bcast_S8x256x1x2048_S8x256x8x2048_0_1_2_3 : S8x256x1x2048.BroadcastsInDim S8x256x8x2048 (![0, 1, 2, 3] : Fin 4 → Fin S8x256x8x2048.rank)
  bcast_S1x1x8x1_S8x256x8x2048_0_1_2_3 : S1x1x8x1.BroadcastsInDim S8x256x8x2048 (![0, 1, 2, 3] : Fin 4 → Fin S8x256x8x2048.rank)
  bcast_S_S8x256x8x2048 : S_.BroadcastsInDim S8x256x8x2048 (![] : Fin 0 → Fin S8x256x8x2048.rank)
  shapeCasts_S8x256x8x2048_S8x2048x2048 : S8x256x8x2048.ShapeCasts S8x2048x2048
  bcast_S_S2048 : S_.BroadcastsInDim S2048 (![] : Fin 0 → Fin S2048.rank)
  bcast_S2048_S2048x1_0 : S2048.BroadcastsInDim S2048x1 (![0] : Fin 1 → Fin S2048x1.rank)
  bcast_S_S8192x2048 : S_.BroadcastsInDim S8192x2048 (![] : Fin 0 → Fin S8192x2048.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  slices_S8x2048x2048_S1x2048x2048_0_0_0 : S8x2048x2048.Slices ![0, 0, 0] S1x2048x2048
  shapeCasts_S1x2048x2048_S2048x2048 : S1x2048x2048.ShapeCasts S2048x2048
  slices_S8x2048x2048_S1x2048x2048_1_0_0 : S8x2048x2048.Slices ![1, 0, 0] S1x2048x2048
  slices_S8x2048x2048_S1x2048x2048_2_0_0 : S8x2048x2048.Slices ![2, 0, 0] S1x2048x2048
  slices_S8x2048x2048_S1x2048x2048_3_0_0 : S8x2048x2048.Slices ![3, 0, 0] S1x2048x2048
  slices_S8x2048x2048_S1x2048x2048_4_0_0 : S8x2048x2048.Slices ![4, 0, 0] S1x2048x2048
  slices_S8x2048x2048_S1x2048x2048_5_0_0 : S8x2048x2048.Slices ![5, 0, 0] S1x2048x2048
  slices_S8x2048x2048_S1x2048x2048_6_0_0 : S8x2048x2048.Slices ![6, 0, 0] S1x2048x2048
  slices_S8x2048x2048_S1x2048x2048_7_0_0 : S8x2048x2048.Slices ![7, 0, 0] S1x2048x2048
  gather_S8x16x2048_S2048x1_S8x2048x2048_02_1_n_n_1_1_812048_wf : GatherDims.WF S8x16x2048 S2048x1 S8x2048x2048 [0, 2] [1] [] [1] [] 1 ![8, 1, 2048]
  dot_S8192x2048_S2048x2048_S8192x2048_1_0_0_1_n_n_wf : DotDims.WF S8192x2048 S2048x2048 S8192x2048 [1] [0] [0] [1] [] []

variable [Facts₀]

def gather_S8x16x2048_S2048x1_S8x2048x2048_02_1_n_n_1_1_812048 : GatherDims S8x16x2048 S2048x1 S8x2048x2048 where
  offsetDims := [0, 2]
  collapsedSliceDims := [1]
  operandBatchingDims := []
  startIndicesBatchingDims := []
  startIndexMap := [1]
  indexVectorDim := 1
  sliceSizes := ![8, 1, 2048]
  wf := gather_S8x16x2048_S2048x1_S8x2048x2048_02_1_n_n_1_1_812048_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The mathematics of the kernel and of its reference, as one function of the argument arrays.

  Tokens are the rows of `x` (8192 rows of 2048 features); each token carries the number of the expert it is routed to;
  expert `e` owns a 2048 × 2048 matrix `W e`. The result's row `r` is row `r` of `x` times the matrix of the one expert
  the token is routed to. Both programs compute it without a gather: for every expert `e` the row is multiplied by the
  indicator "token `r` is routed to `e`" (one or zero), the gated row is multiplied into `W e`, and the eight products are
  added in the order of the experts, starting from zero.
-/
import Idealize.ShloMosaic.PureOps.Ideal
import Idealize.ShloMosaic.PureOps.Ideal.Laws
import Idealize.ShloMosaic.Lib.ValueIdx

noncomputable section

open scoped BigOperators

namespace Cert.Moe

open Idealize.ShloMosaic Idealize.ShloMosaic.ValueIdx

/-- Tokens by features, and the result: 8192 × 2048. -/
abbrev Tok : Shape := ⟨2, ![8192, 2048]⟩
/-- One expert number per token. -/
abbrev Ids : Shape := ⟨1, ![8192]⟩
/-- The experts' matrices: 8 of 2048 × 2048. -/
abbrev Wts : Shape := ⟨3, ![8, 2048, 2048]⟩

/-- The routing indicator: one when the token's expert number `id` is `e`, zero otherwise, as an extended real. -/
def gate (id e : BitVec 32) : EReal := (((IntOp.cmpi .eq id e).toNat : ℝ) : EReal)

/-- The comparison bit converted unsigned is the indicator. -/
theorem gate_of_uitofp (id e : BitVec 32) :
    FloatOps.uitofp (F := Ideal) .f32 (IntOp.cmpi .eq id e) = gate id e := rfl

/-- The comparison bit widened to a word by zeros and converted signed is the indicator too: a word that is 0 or 1
    reads the same signed and unsigned. -/
theorem gate_of_sitofp (id e : BitVec 32) :
    FloatOps.sitofp (F := Ideal) .f32 ((IntOp.cmpi .eq id e).setWidth 32) = gate id e := by
  unfold gate
  show ((((IntOp.cmpi .eq id e).setWidth 32).toInt : ℝ) : EReal) = _
  generalize IntOp.cmpi .eq id e = b
  have h : ∀ b : BitVec 1, (b.setWidth 32).toInt = (b.toNat : Int) := by decide
  rw [h b, Int.cast_natCast]

/-- Expert `e`'s contribution to the result at row `r`, column `n`: the gated row `r` of `x` against column `n` of `W e`. -/
def contrib (x : Tok.Idx → EReal) (ids : Ids.Idx → BitVec 32) (W : Wts.Idx → EReal) (e : Fin 8) (r : Fin 8192)
    (n : Fin 2048) : EReal :=
  ∑ k : Fin 2048, (x (ix2 r k) * gate (ids (ix1 r)) (BitVec.ofNat 32 e.val)) * W (ix3 e k n)

/-- The result: the eight experts' contributions added up. -/
def moe (x : Tok.Idx → EReal) (ids : Ids.Idx → BitVec 32) (W : Wts.Idx → EReal) : Tok.Idx → EReal :=
  fun j => ∑ e : Fin 8, contrib x ids W e (j 0) (j 1)

/-- The sum over the experts, written out in their order from zero: the order in which both programs add. -/
theorem moe_chain (x : Tok.Idx → EReal) (ids : Ids.Idx → BitVec 32) (W : Wts.Idx → EReal) (r : Fin 8192) (n : Fin 2048) :
    moe x ids W (ix2 r n)
      = 0 + contrib x ids W 0 r n + contrib x ids W 1 r n + contrib x ids W 2 r n + contrib x ids W 3 r n
          + contrib x ids W 4 r n + contrib x ids W 5 r n + contrib x ids W 6 r n + contrib x ids W 7 r n := by
  show ∑ e : Fin 8, contrib x ids W e r n = _
  rw [Fin.sum_univ_eight, zero_add]

end Cert.Moe

end
-- ==== Proof.Payload.lean ====
/-
  The kernel body's arithmetic at one grid point, read at one entry of the block.

  At a grid point the body holds a 512 × 2048 block of tokens, the 512 expert numbers of those tokens, one expert's
  2048 × 1024 block of weights and the 512 × 1024 block accumulated so far. What it stores back into the accumulator is,
  at row `p` and column `q`, what was there plus the gated row `p` of the token block against column `q` of the weight
  block: a sum over the 2048 features. The gate is the indicator that the token's expert number is the grid point's
  third coordinate.
-/
import proofs.«406548_j71141838291320_1_alg».proof.Proof.Gen.KernelIdeal.Skeleton
import proofs.«406548_j71141838291320_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Moe.Body

open Cert.KernelIdeal Cert.KernelIdeal.Gen Idealize.ShloMosaic Idealize.ShloMosaic.ValueIdx Cert.Moe

/-! ## The matrix product of a 512 × 2048 block with a 2048 × 1024 block, at an entry -/

theorem lhs_axis0 (j : S512x1024.Idx) (q : dot_S512x2048_S2048x1024_S512x1024_1_0_0_1_n_n.contr.Idx) :
    (dot_S512x2048_S2048x1024_S512x1024_1_0_0_1_n_n.lhsIdx j q 0).val = (j 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_axis1 (j : S512x1024.Idx) (q : dot_S512x2048_S2048x1024_S512x1024_1_0_0_1_n_n.contr.Idx) :
    (dot_S512x2048_S2048x1024_S512x1024_1_0_0_1_n_n.lhsIdx j q 1).val = (q ⟨0, by decide⟩).val :=
  dot_S512x2048_S2048x1024_S512x1024_1_0_0_1_n_n.lhsIdx_val_of_single rfl j q
theorem rhs_axis0 (j : S512x1024.Idx) (q : dot_S512x2048_S2048x1024_S512x1024_1_0_0_1_n_n.contr.Idx) :
    (dot_S512x2048_S2048x1024_S512x1024_1_0_0_1_n_n.rhsIdx j q 0).val = (q ⟨0, by decide⟩).val :=
  dot_S512x2048_S2048x1024_S512x1024_1_0_0_1_n_n.rhsIdx_val_of_single rfl j q
theorem rhs_axis1 (j : S512x1024.Idx) (q : dot_S512x2048_S2048x1024_S512x1024_1_0_0_1_n_n.contr.Idx) :
    (dot_S512x2048_S2048x1024_S512x1024_1_0_0_1_n_n.rhsIdx j q 1).val = (j 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Into a zero accumulator the product's entry `(p, q)` is the sum over the features `k` of `l (p, k) · r (k, q)`. -/
theorem product_apply (l : FVec Ideal S512x2048 .bf16) (r : FVec Ideal S2048x1024 .bf16) (p : Fin 512) (q : Fin 1024) :
    matmul (F := Ideal) dot_S512x2048_S2048x1024_S512x1024_1_0_0_1_n_n none l r (constant S512x1024 .f32 0x00000000#32) (ix2 p q)
      = ∑ k : Fin 2048, l (ix2 p k) * r (ix2 k q) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-! ## The layout steps of the body, at an entry -/

/-- A column of 512 values spread over 2048 columns reads, at `(p, k)`, the column's value at row `p`. -/
theorem spread_apply {α : Type} (v : S512x1.Idx → α) (h : S512x1.Broadcasts S512x2048) (p : Fin 512) (k : Fin 2048) :
    broadcastTo S512x2048 v h (ix2 p k) = v (ix2 p (0 : Fin 1)) := by
  refine broadcastTo_apply v h (ix2 p k) (ix2 p (0 : Fin 1)) fun ax => ?_
  match ax with
  | ⟨0, _⟩ => show p.val = if (512 : Nat) = 1 then 0 else p.val; rw [if_neg (by decide)]
  | ⟨1, _⟩ => show (0 : Nat) = if (1 : Nat) = 1 then 0 else k.val; rw [if_pos rfl]

/-! ## What the body stores into the accumulator -/

/-- The stored block at `(p, q)`: the accumulator's entry plus the gated token row `p` against the weight column `q`. -/
theorem stored_apply (i : grid0.Coords) (ids : Vec Ideal S512x1 .i32) (x : Vec Ideal S512x2048 .bf16)
    (acc : Vec Ideal S512x1024 .f32) (w : Vec Ideal S1x2048x1024 .bf16) (p : Fin 512) (q : Fin 1024) :
    k0_pay2 (F := Ideal) i ids x acc w (ix2 p q)
      = acc (ix2 p q) + ∑ k : Fin 2048,
          (x (ix2 p k) * gate (ids (ix2 p (0 : Fin 1))) (BitVec.ofNat 32 (i 2).val)) * w (ix3 (0 : Fin 1) k q) := by
  unfold k0_pay2
  simp only [shapeCast_self]
  refine (congrArg (fun z => acc (ix2 p q) + z) (product_apply _ _ p q)).trans ?_
  refine congrArg (fun z => acc (ix2 p q) + z) (Finset.sum_congr rfl fun k _ => ?_)
  refine congrArg₂ (· * ·) (congrArg (fun z => x (ix2 p k) * z) ?_) (shapeCast_1ab_ab_apply w _ k q)
  refine (spread_apply _ _ p k).trans ?_
  exact gate_of_sitofp (ids (ix2 p (0 : Fin 1))) (BitVec.ofNat 32 (i 2).val)

end Cert.Moe.Body

end
-- ==== Proof.Pieces.lean ====
/-
  What one grid point leaves in the accumulator and in the output block, as the body's arithmetic.

  The body runs in one of three ways. At the first expert it clears the accumulator and then adds that expert's product
  into it; at the experts in between it adds into what the point before left; at the last expert it adds and then copies
  the accumulator into the output block. In every case the accumulator ends at the stored block of the body's arithmetic
  (`k0_pay2`) over what it held before — zeros (`k0_pay1`) at the first expert —, and at the last expert the output block is
  the same block, read back from the accumulator.
-/
import proofs.«406548_j71141838291320_1_alg».proof.Proof.Gen.KernelIdeal.Frame
import Idealize.ShloMosaic.Lib.Pipeline.Value
import Idealize.ShloMosaic.Lib.Tactic

set_option maxRecDepth 16384

noncomputable section

namespace Cert.Moe.Pieces

open Cert.KernelIdeal Cert.KernelIdeal.Gen Idealize.ShloMosaic Idealize.ShloMosaic.TcCoe Idealize.ShloMosaic.Tactic Idealize.SL.Sem

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- An expert in between: the accumulator, holding `acc`, ends at the stored block over `acc`. -/
theorem acc_between (c : Dev nD) (i : grid0.Coords) (arg3 : Memref sig .tc .vmem S512x2048 .bf16) (harg3 : arg3.IsWhole) (arg4 : Memref sig .tc .vmem S512x1 .i32) (harg4 : arg4.IsWhole) (arg5 : Memref sig .tc .vmem S1x2048x1024 .bf16) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x0 : Vec F S512x2048 .bf16) (x1 : Vec F S512x1 .i32) (x2 : Vec F S1x2048x1024 .bf16) (acc : Vec F S512x1024 .f32) :
    sout0_B_0 c i arg3 harg3 arg4 harg4 arg5 harg5 arg6 harg6 arg7 harg7 hc0 hc1 x0 x1 x2 acc = k0_pay2 i x1 x0 acc x2 := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  sl_unfold_words
  rw [View.canon_unit_zero origin2]
  simp only [View.readAt_eq_ld, harg3.read_unread, harg4.read_unread, harg5.read_unread, harg7.read_unread,
    View.ld_unit_zero (S := S512x2048) origin2, View.ld_unit_zero (S := S512x1) origin2,
    View.ld_unit_zero (S := S512x1024) origin2, View.ld_unit_zero (S := S1x2048x1024) origin3]

/-- The last expert: the accumulator ends at the stored block over `acc`, as in between. -/
theorem acc_last (c : Dev nD) (i : grid0.Coords) (arg3 : Memref sig .tc .vmem S512x2048 .bf16) (harg3 : arg3.IsWhole) (arg4 : Memref sig .tc .vmem S512x1 .i32) (harg4 : arg4.IsWhole) (arg5 : Memref sig .tc .vmem S1x2048x1024 .bf16) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x2048 .bf16) (x1 : Vec F S512x1 .i32) (x2 : Vec F S1x2048x1024 .bf16) (acc : Vec F S512x1024 .f32) :
    sout0_C_0 c i arg3 harg3 arg4 harg4 arg5 harg5 arg6 harg6 arg7 harg7 hc0 hc1 x0 x1 x2 acc = k0_pay2 i x1 x0 acc x2 := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero origin2]
  simp only [View.readAt_eq_ld, harg3.read_unread, harg4.read_unread, harg5.read_unread, harg7.read_unread,
    View.ld_unit_zero (S := S512x2048) origin2, View.ld_unit_zero (S := S512x1) origin2,
    View.ld_unit_zero (S := S512x1024) origin2, View.ld_unit_zero (S := S1x2048x1024) origin3]

/-- The last expert: the output block is the accumulator's final contents, read back after the store. -/
theorem out_last (c : Dev nD) (i : grid0.Coords) (arg3 : Memref sig .tc .vmem S512x2048 .bf16) (harg3 : arg3.IsWhole) (arg4 : Memref sig .tc .vmem S512x1 .i32) (harg4 : arg4.IsWhole) (arg5 : Memref sig .tc .vmem S1x2048x1024 .bf16) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x2048 .bf16) (x1 : Vec F S512x1 .i32) (x2 : Vec F S1x2048x1024 .bf16) (acc : Vec F S512x1024 .f32) :
    out0_C_3 c i arg3 harg3 arg4 harg4 arg5 harg5 arg6 harg6 arg7 harg7 hc0 hc1 x0 x1 x2 acc = k0_pay2 i x1 x0 acc x2 := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero origin2, View.readCov_unit_zero (S := S512x1024) _ origin2]
  simp only [View.readAt_eq_ld, harg3.read_unread, harg4.read_unread, harg5.read_unread, harg7.read_unread,
    View.ld_unit_zero (S := S512x2048) origin2, View.ld_unit_zero (S := S512x1) origin2,
    View.ld_unit_zero (S := S512x1024) origin2, View.ld_unit_zero (S := S1x2048x1024) origin3]

/-- The first expert: the accumulator is cleared, read back, and ends at the stored block over the zeros. -/
theorem acc_first (c : Dev nD) (i : grid0.Coords) (arg3 : Memref sig .tc .vmem S512x2048 .bf16) (harg3 : arg3.IsWhole) (arg4 : Memref sig .tc .vmem S512x1 .i32) (harg4 : arg4.IsWhole) (arg5 : Memref sig .tc .vmem S1x2048x1024 .bf16) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x2048 .bf16) (x1 : Vec F S512x1 .i32) (x2 : Vec F S1x2048x1024 .bf16) :
    sout0_A_0 c i arg3 harg3 arg4 harg4 arg5 harg5 arg6 harg6 arg7 harg7 hc0 hc1 x0 x1 x2 = k0_pay2 i x1 x0 (k0_pay1 (F := F)) x2 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) origin2]
  simp only [View.readAt_eq_ld, harg3.read_unread, harg4.read_unread, harg5.read_unread,
    View.readCov_unit_zero (S := S512x1024) _ origin2,
    View.ld_unit_zero (S := S512x2048) origin2, View.ld_unit_zero (S := S512x1) origin2,
    View.ld_unit_zero (S := S1x2048x1024) origin3]

end Cert.Moe.Pieces

end
-- ==== Proof.Blocks.lean ====
/-
  Where a grid point's blocks sit in the arrays.

  The grid runs over 16 row blocks of 512 tokens, 2 column blocks of 1024 output features and the 8 experts, the experts
  fastest: point `n` is row block `n / 16`, column block `n / 8 % 2`, expert `n % 8`. At that point the body is handed
  rows `512·(n/16) …` of the tokens and of their expert numbers, and of expert `n % 8`'s matrix all 2048 rows of columns
  `1024·(n/8 % 2) …`; the output block it may write back is rows `512·(n/16) …`, columns `1024·(n/8 % 2) …` of the result.
-/
import proofs.«406548_j71141838291320_1_alg».proof.Proof.Gen.KernelIdeal.Frame
import proofs.«406548_j71141838291320_1_alg».proof.Proof.Spec
import Idealize.ShloMosaic.Lib.Pipeline.Value
import Idealize.ShloMosaic.Lib.ValueIdx

noncomputable section

namespace Cert.Moe.Blocks

open Cert.KernelIdeal Cert.KernelIdeal.Gen Idealize.ShloMosaic Idealize.ShloMosaic.TcCoe Idealize.ShloMosaic.ValueIdx
open Idealize.SL.Sem Cert.Moe

variable (m : (ℓ : Loc nD τ sig) → Buf (Elt Ideal) ℓ)

/-! ## A point's place in the arrays -/

/-- Row `p` of point `n`'s blocks is this row of the arrays. -/
def rowOf (n : ℕ) (p : Fin 512) : Fin 8192 := ⟨512 * (n / 16 % 16) + p.val, by have := p.isLt; omega⟩
/-- Column `q` of point `n`'s blocks is this output column. -/
def colOf (n : ℕ) (q : Fin 1024) : Fin 2048 := ⟨1024 * (n / 8 % 2) + q.val, by have := q.isLt; omega⟩
/-- Point `n`'s expert. -/
def expOf (n : ℕ) : Fin 8 := ⟨n % 8, Nat.mod_lt _ (by decide)⟩

/-- The printed index maps, decided over the grid's 256 points. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 3) = t.val % 8 ∧ win0_2.index t (1 : Fin 3) = 0 ∧ win0_2.index t (2 : Fin 3) = t.val / 8 % 2
    ∧ win0_3.index t (0 : Fin 2) = t.val / 16 ∧ win0_3.index t (1 : Fin 2) = t.val / 8 % 2
    ∧ (grid0.coords t 2).val = t.val % 8 :=
  (by decide +kernel : ∀ t : Fin grid0.N, _)

theorem lt_256 (t : Fin cfg0.N) : t.val < 256 := lt_of_lt_of_eq t.isLt (show cfg0.N = 256 from N_0)

/-! ## The arrays the region finds, and a point's blocks of them -/

/-- The tokens as the region finds them. -/
abbrev tokArr (c : Dev nD) : Vec Ideal S8192x2048 .bf16 := V m c main_v30
/-- The tokens' expert numbers, as a column. -/
abbrev idsArr (c : Dev nD) : Vec Ideal S8192x1 .i32 := V m c main_v31
/-- The experts' matrices. -/
abbrev wArr (c : Dev nD) : Vec Ideal S8x2048x2048 .bf16 := V m c main_v29

/-- Point `t`'s block of tokens, -/
abbrev tokBlk (c : Dev nD) (t : Fin cfg0.N) : Vec Ideal S512x2048 .bf16 := iblk m c 0 t
/-- of expert numbers, -/
abbrev idsBlk (c : Dev nD) (t : Fin cfg0.N) : Vec Ideal S512x1 .i32 := iblk m c 1 t
/-- and of weights. -/
abbrev wBlk (c : Dev nD) (t : Fin cfg0.N) : Vec Ideal S1x2048x1024 .bf16 := iblk m c 2 t

theorem tokBlk_apply (c : Dev nD) (t : Fin cfg0.N) (p : Fin 512) (k : Fin 2048) :
    tokBlk m c t (ix2 p k) = tokArr m c (ix2 (rowOf t.val p) k) := by
  obtain ⟨e0, e1, -⟩ := idx_facts t
  have ht := lt_256 t
  show V m c main_v30 (((cfg0.win 0).blk t).view.emb (ix2 p k)) = V m c main_v30 (ix2 (rowOf t.val p) k)
  refine congrArg (V m c main_v30) (funext fun a => Fin.ext ?_)
  match a with
  | ⟨0, _⟩ => show win0_0.index t (0 : Fin 2) * 512 + 1 * p.val = 512 * (t.val / 16 % 16) + p.val; omega
  | ⟨1, _⟩ => show win0_0.index t (1 : Fin 2) * 2048 + 1 * k.val = k.val; omega

theorem idsBlk_apply (c : Dev nD) (t : Fin cfg0.N) (p : Fin 512) :
    idsBlk m c t (ix2 p (0 : Fin 1)) = idsArr m c (ix2 (rowOf t.val p) (0 : Fin 1)) := by
  obtain ⟨-, -, e0, e1, -⟩ := idx_facts t
  have ht := lt_256 t
  show V m c main_v31 (((cfg0.win 1).blk t).view.emb (ix2 p (0 : Fin 1))) = V m c main_v31 (ix2 (rowOf t.val p) (0 : Fin 1))
  refine congrArg (V m c main_v31) (funext fun a => Fin.ext ?_)
  match a with
  | ⟨0, _⟩ => show win0_1.index t (0 : Fin 2) * 512 + 1 * p.val = 512 * (t.val / 16 % 16) + p.val; omega
  | ⟨1, _⟩ => show win0_1.index t (1 : Fin 2) * 1 + 1 * 0 = 0; omega

theorem wBlk_apply (c : Dev nD) (t : Fin cfg0.N) (k : Fin 2048) (q : Fin 1024) :
    wBlk m c t (ix3 (0 : Fin 1) k q) = wArr m c (ix3 (expOf t.val) k (colOf t.val q)) := by
  obtain ⟨-, -, -, -, e0, e1, e2, -⟩ := idx_facts t
  have ht := lt_256 t
  show V m c main_v29 (((cfg0.win 2).blk t).view.emb (ix3 (0 : Fin 1) k q)) = V m c main_v29 (ix3 (expOf t.val) k (colOf t.val q))
  refine congrArg (V m c main_v29) (funext fun a => Fin.ext ?_)
  match a with
  | ⟨0, _⟩ => show win0_2.index t (0 : Fin 3) * 1 + 1 * 0 = t.val % 8; omega
  | ⟨1, _⟩ => show win0_2.index t (1 : Fin 3) * 2048 + 1 * k.val = k.val; omega
  | ⟨2, _⟩ => show win0_2.index t (2 : Fin 3) * 1024 + 1 * q.val = 1024 * (t.val / 8 % 2) + q.val; omega

/-- Entry `(p, q)` of point `t`'s output block is this entry of the result array. -/
theorem outBlk_emb (t : Fin cfg0.N) (p : Fin 512) (q : Fin 1024) :
    ((cfg0.win 3).blk t).view.emb (ix2 p q) = ix2 (rowOf t.val p) (colOf t.val q) := by
  obtain ⟨-, -, -, -, -, -, -, e0, e1, -⟩ := idx_facts t
  have ht := lt_256 t
  funext a; apply Fin.ext
  match a with
  | ⟨0, _⟩ => show win0_3.index t (0 : Fin 2) * 512 + 1 * p.val = 512 * (t.val / 16 % 16) + p.val; omega
  | ⟨1, _⟩ => show win0_3.index t (1 : Fin 2) * 1024 + 1 * q.val = 1024 * (t.val / 8 % 2) + q.val; omega

end Cert.Moe.Blocks

end
-- ==== Proof.Accum.lean ====
/-
  The kernel's result array.

  A run of eight consecutive grid points shares one output block and visits the eight experts in order. The first point of
  the run clears the accumulator and adds its expert's contribution, each later point adds its expert's contribution to
  what the point before left, and the last point copies the accumulator into the output block, which is then written
  back. So the block written back holds, entry by entry, the eight experts' contributions to that entry of the result,
  added in order from zero; the 32 runs' blocks tile the result array.
-/
import proofs.«406548_j71141838291320_1_alg».proof.Proof.Gen.KernelIdeal.Value
import proofs.«406548_j71141838291320_1_alg».proof.Proof.Payload
import proofs.«406548_j71141838291320_1_alg».proof.Proof.Pieces
import proofs.«406548_j71141838291320_1_alg».proof.Proof.Blocks
import Idealize.ShloMosaic.Lib.Pipeline.Value

noncomputable section

open scoped BigOperators

namespace Cert.Moe.Accum

open Cert.KernelIdeal Cert.KernelIdeal.Gen Cert.KernelIdeal.Value Idealize.ShloMosaic Idealize.ShloMosaic.TcCoe
open Idealize.ShloMosaic.ValueIdx Idealize.SL.Sem Cert.Moe Cert.Moe.Blocks
open Idealize.ShloMosaic.Pipeline (Dat)

variable (m : (ℓ : Loc nD τ sig) → Buf (Elt Ideal) ℓ) (ρ : Dev nD → PrngReg)

/-- The tokens, their expert numbers and the experts' matrices, as the region finds them. -/
abbrev X (c : Dev nD) : Tok.Idx → EReal := tokArr m c
abbrev I (c : Dev nD) : Ids.Idx → BitVec 32 := fun j => idsArr m c (ix2 (j 0) (0 : Fin 1))
abbrev Wm (c : Dev nD) : Wts.Idx → EReal := wArr m c

/-- What point `n` adds at entry `i` of its block: its expert's contribution to that entry of the result. -/
def addend (c : Dev nD) (n : ℕ) (i : S512x1024.Idx) : EReal :=
  contrib (X m c) (I m c) (Wm m c) (expOf n) (rowOf n (i 0)) (colOf n (i 1))

/-- The block the body stores at point `t` over an accumulator `acc`: `acc` plus the point's addend. -/
theorem point_apply (c : Dev nD) (t : Fin cfg0.N) (acc : Vec Ideal S512x1024 .f32) (p : Fin 512) (q : Fin 1024) :
    k0_pay2 (F := Ideal) (grid0.coords t) (idsBlk m c t) (tokBlk m c t) acc (wBlk m c t) (ix2 p q)
      = acc (ix2 p q) + addend m c t.val (ix2 p q) := by
  refine (Body.stored_apply (grid0.coords t) (idsBlk m c t) (tokBlk m c t) acc (wBlk m c t) p q).trans ?_
  refine congrArg (fun z => acc (ix2 p q) + z) ?_
  unfold addend contrib
  refine Finset.sum_congr rfl fun k _ => ?_
  have e : (grid0.coords t 2).val = t.val % 8 := (idx_facts t).2.2.2.2.2.2.2.2.2
  rw [tokBlk_apply, idsBlk_apply, wBlk_apply, e]
  rfl

/-- The cleared accumulator is zero everywhere. -/
theorem cleared_apply (i : S512x1024.Idx) : k0_pay1 (F := Ideal) i = 0 := by
  unfold k0_pay1
  simp only [shapeCast_self]
  exact Ideal.ofBits_zero_f32

theorem first_at (c : Dev nD) (t : Fin cfg0.N) (h0 : cond0_0 (grid0.coords t)) (h1 : ¬cond0_1 (grid0.coords t))
    (p : Fin 512) (q : Fin 1024) :
    sout0_A_0 c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) (ix2 p q) = 0 + addend m c t.val (ix2 p q) := by
  refine (congrFun (Pieces.acc_first (F := Ideal) c (grid0.coords t) (ms0_0 t) (hs0_0 t) (ms0_1 t) (hs0_1 t) (ms0_2 t) (hs0_2 t) (ms0_3 t) (hs0_3 t) scM0_0 (Memref.isWhole_whole _) h0 h1 (tokBlk m c t) (idsBlk m c t) (wBlk m c t)) (ix2 p q)).trans ?_
  refine (point_apply m c t (k0_pay1 (F := Ideal)) p q).trans ?_
  rw [cleared_apply]

theorem between_at (c : Dev nD) (t : Fin cfg0.N) (h0 : ¬cond0_0 (grid0.coords t)) (h1 : ¬cond0_1 (grid0.coords t))
    (acc : Vec Ideal S512x1024 .f32) (p : Fin 512) (q : Fin 1024) :
    sout0_B_0 c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) acc (ix2 p q) = acc (ix2 p q) + addend m c t.val (ix2 p q) := by
  refine (congrFun (Pieces.acc_between (F := Ideal) c (grid0.coords t) (ms0_0 t) (hs0_0 t) (ms0_1 t) (hs0_1 t) (ms0_2 t) (hs0_2 t) (ms0_3 t) (hs0_3 t) scM0_0 (Memref.isWhole_whole _) h0 h1 (tokBlk m c t) (idsBlk m c t) (wBlk m c t) acc) (ix2 p q)).trans ?_
  exact point_apply m c t acc p q

theorem last_at (c : Dev nD) (t : Fin cfg0.N) (h0 : ¬cond0_0 (grid0.coords t)) (h1 : cond0_1 (grid0.coords t))
    (acc : Vec Ideal S512x1024 .f32) (p : Fin 512) (q : Fin 1024) :
    sout0_C_0 c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) acc (ix2 p q) = acc (ix2 p q) + addend m c t.val (ix2 p q) := by
  refine (congrFun (Pieces.acc_last (F := Ideal) c (grid0.coords t) (ms0_0 t) (hs0_0 t) (ms0_1 t) (hs0_1 t) (ms0_2 t) (hs0_2 t) (ms0_3 t) (hs0_3 t) scM0_0 (Memref.isWhole_whole _) h0 h1 (tokBlk m c t) (idsBlk m c t) (wBlk m c t) acc) (ix2 p q)).trans ?_
  exact point_apply m c t acc p q

/-- At the first point of a run the accumulator ends at zero plus the point's addend, whatever it held. -/
theorem reset_apply (c : Dev nD) (n : ℕ) (hb : n < cfg0.N) (h0 : n % 8 = 0) (old : Vec Ideal S512x1024 .f32)
    (p : Fin 512) (q : Fin 1024) :
    scAt0_0 m c n hb old (ix2 p q) = 0 + addend m c n (ix2 p q) := by
  have h7 : ¬n % 8 = 7 := by omega
  unfold scAt0_0
  rw [dif_pos h0, dif_neg h7]
  exact first_at m c ⟨n, hb⟩ _ _ p q

/-- At every other point it ends at what it held plus the point's addend. -/
theorem step_apply (c : Dev nD) (n : ℕ) (hb : n < cfg0.N) (h0 : ¬n % 8 = 0) (acc : Vec Ideal S512x1024 .f32)
    (p : Fin 512) (q : Fin 1024) :
    scAt0_0 m c n hb acc (ix2 p q) = acc (ix2 p q) + addend m c n (ix2 p q) := by
  unfold scAt0_0
  rw [dif_neg h0]
  by_cases h7 : n % 8 = 7
  · rw [dif_pos h7]; exact last_at m c ⟨n, hb⟩ _ _ acc p q
  · rw [dif_neg h7]; exact between_at m c ⟨n, hb⟩ _ _ acc p q

/-- After the last point of a run the accumulator holds the sum of the run's eight addends. -/
theorem acc_after (c : Dev nD) (t : Fin cfg0.N) (h7 : t.val % 8 = 7) (p : Fin 512) (q : Fin 1024) :
    (outsAt0 m c t.val t.isLt).2 (ix2 p q) = 0 + ∑ s ∈ Finset.range 8, addend m c (8 * (t.val / 8) + s) (ix2 p q) := by
  rw [soutsAt0_0_eq m c t]
  refine (Pipeline.accAt_add_apply (ι := S512x1024.Idx) (β := EReal)
    (fun n h => scAt0_0 m c n h (VS0_0.read (Elt Ideal) VS0_0.junk)) (scAt0_0 m c) (fun _ => (0 : EReal)) (addend m c)
    (8 * (t.val / 8)) 7 ?_ ?_ (t.val % 8) (by omega) _ (ix2 p q)).trans ?_
  · intro h i
    obtain ⟨p', q', rfl⟩ : ∃ (p' : Fin 512) (q' : Fin 1024), i = ix2 p' q' := ⟨i 0, i 1, eq_ix2 i⟩
    exact reset_apply m c _ h (by omega) _ p' q'
  · intro n h acc i hlo hhi
    obtain ⟨p', q', rfl⟩ : ∃ (p' : Fin 512) (q' : Fin 1024), i = ix2 p' q' := ⟨i 0, i 1, eq_ix2 i⟩
    exact step_apply m c n h (by omega) acc p' q'
  · rw [h7]

/-- The eight addends of a run are the eight experts' contributions to one entry of the result. -/
theorem sum_addend (c : Dev nD) (t : Fin cfg0.N) (p : Fin 512) (q : Fin 1024) :
    ∑ s ∈ Finset.range 8, addend m c (8 * (t.val / 8) + s) (ix2 p q)
      = moe (X m c) (I m c) (Wm m c) (ix2 (rowOf t.val p) (colOf t.val q)) := by
  rw [Finset.sum_range]
  show _ = ∑ e : Fin 8, contrib (X m c) (I m c) (Wm m c) e (rowOf t.val p) (colOf t.val q)
  refine Finset.sum_congr rfl fun s _ => ?_
  have hs := s.isLt
  have e1 : expOf (8 * (t.val / 8) + s.val) = s := Fin.ext (by show (8 * (t.val / 8) + s.val) % 8 = s.val; omega)
  have e2 : rowOf (8 * (t.val / 8) + s.val) p = rowOf t.val p :=
    Fin.ext (by show 512 * ((8 * (t.val / 8) + s.val) / 16 % 16) + p.val = 512 * (t.val / 16 % 16) + p.val; omega)
  have e3 : colOf (8 * (t.val / 8) + s.val) q = colOf t.val q :=
    Fin.ext (by show 1024 * ((8 * (t.val / 8) + s.val) / 8 % 2) + q.val = 1024 * (t.val / 8 % 2) + q.val; omega)
  show contrib (X m c) (I m c) (Wm m c) (expOf (8 * (t.val / 8) + s.val)) (rowOf (8 * (t.val / 8) + s.val) p)
    (colOf (8 * (t.val / 8) + s.val) q) = _
  rw [e1, e2, e3]

/-- The result array of the kernel. -/
abbrev result (c : Dev nD) : S8192x2048.Idx → EReal := moe (X m c) (I m c) (Wm m c)

/-- At the last point of a run the output block holds the result's entries under it. -/
theorem out_after (c : Dev nD) (t : Fin cfg0.N) (h7 : t.val % 8 = 7) (p : Fin 512) (q : Fin 1024) :
    (outsAt0 m c t.val t.isLt).1 (ix2 p q) = result m c (ix2 (rowOf t.val p) (colOf t.val q)) := by
  have h0 : ¬t.val % 8 = 0 := by omega
  have e : (outsAt0 m c t.val t.isLt).1 = (outsAt0 m c t.val t.isLt).2 := by
    rw [outsAt0_C m c t h0 h7]
    dsimp only
    exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).trans
      (Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).symm
  rw [e, acc_after m c t h7 p q, zero_add, sum_addend]

/-- What a point writes back is its block of the result. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  rw [flushed3]
  funext j
  obtain ⟨p, q, rfl⟩ : ∃ (p : Fin 512) (q : Fin 1024), j = ix2 p q := ⟨j 0, j 1, eq_ix2 j⟩
  show (outsAt0 m c t.val t.isLt).1 (ix2 p q) = result m c (((cfg0.win 3).blk t).view.emb (ix2 p q))
  rw [outBlk_emb, out_after m c t h7 p q]

/-- An index of the result is in point `t`'s block iff each coordinate is in the block's range on its axis. -/
theorem mem_blk (t : Fin cfg0.N) (i : S8192x2048.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v32).slice (win0_3.rect t)).set ↔ _
  rw [View.set_slice_whole, Rect.mem_set_unit]
  exact Iff.rfl

/-- Every entry of the result lies in the block some run writes back: the run of its row block and column block. -/
theorem covered (i : S8192x2048.Idx) :
    ∃ t : Fin cfg0.N, (cfg0.win 3).flush t = true ∧ i ∈ ((cfg0.win 3).blk t).view.set := by
  have h0 : (i 0).val < 8192 := (i 0).isLt
  have h1 : (i 1).val < 2048 := (i 1).isLt
  obtain ⟨n, hn⟩ : ∃ n, n = ((i 0).val / 512 * 2 + (i 1).val / 1024) * 8 + 7 := ⟨_, rfl⟩
  have hN : n < cfg0.N := by rw [show cfg0.N = 256 from N_0]; omega
  refine ⟨⟨n, hN⟩, (flush0_3 _).mpr (by show n % 8 = 7; omega), ?_⟩
  rw [mem_blk]
  obtain ⟨-, -, -, -, -, -, -, e0, e1, -⟩ := idx_facts ⟨n, hN⟩
  have e0' : win0_3.index ⟨n, hN⟩ (0 : Fin 2) = n / 16 := e0
  have e1' : win0_3.index ⟨n, hN⟩ (1 : Fin 2) = n / 8 % 2 := e1
  intro a
  match a with
  | ⟨0, _⟩ => show win0_3.index ⟨n, hN⟩ (0 : Fin 2) * 512 ≤ (i 0).val ∧ (i 0).val < win0_3.index ⟨n, hN⟩ (0 : Fin 2) * 512 + 512; omega
  | ⟨1, _⟩ => show win0_3.index ⟨n, hN⟩ (1 : Fin 2) * 1024 ≤ (i 1).val ∧ (i 1).val < win0_3.index ⟨n, hN⟩ (1 : Fin 2) * 1024 + 1024; omega

/-- The result array after the run. -/
theorem final (c : Dev nD) : (dats m 0 c).arrAt 3 cfg0.N = result m c :=
  (dats m 0 c).arrAt_eq_of_cover 3 (result m c) (flushed_eq m c) covered

/-- The kernel's run: the result array ends at `result`, the arguments as they were. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Moe.Accum

end
-- ==== Proof.RefValue.lean ====
/-
  The reference's result, entry by entry.

  The reference unrolls the loop over the experts: for each expert it masks the tokens by "routed to this expert" (the
  comparison bit converted to one or zero and spread along the features), multiplies the masked tokens into the expert's
  matrix (a slice of the stack of matrices), and adds the product to the running total, which starts at zero. Read at an
  entry each product is that expert's contribution, and the eight additions from zero are the sum over the experts.
-/
import proofs.«406548_j71141838291320_1_alg».proof.Proof.Gen.ReferenceIdeal.Read
import proofs.«406548_j71141838291320_1_alg».proof.Proof.Spec
import Idealize.ShloMosaic.Lib.ValueIdx
import Idealize.ShloMosaic.PureOps.Ideal.Laws

noncomputable section

open scoped BigOperators

namespace Cert.Moe.Ref

open Cert.ReferenceIdeal Cert.ReferenceIdeal.Read Idealize.ShloMosaic Idealize.ShloMosaic.ValueIdx Cert.Moe

variable (x0 : (⟨S8192x2048, .f32⟩ : BufTy).Contents (Elt Ideal)) (x1 : (⟨S8x256x2048, .i32⟩ : BufTy).Contents (Elt Ideal))
  (x2 : (⟨S8x16x2048, .f32⟩ : BufTy).Contents (Elt Ideal)) (x3 : (⟨S8x16x2048, .i32⟩ : BufTy).Contents (Elt Ideal))
  (x4 : (⟨S2048, .i32⟩ : BufTy).Contents (Elt Ideal)) (x5 : (⟨S8192, .i32⟩ : BufTy).Contents (Elt Ideal))

/-- Expert 0: the tokens masked by "routed to 0" against the expert's matrix, at an entry. -/
theorem expert_0 (r : Fin 8192) (n : Fin 2048) :
    val_main_v38 (F := Ideal) x0 x1 x2 x3 x4 x5 (ix2 r n) = contrib x0 x5 (val_main_v28 (F := Ideal) x1 x2 x3 x4) 0 r n := by
  rw [val_main_v38_apply]
  unfold contrib
  refine Finset.sum_congr rfl fun k _ => ?_
  rw [val_main_v35_apply, val_main_v34_apply, val_main_v33_apply, val_main_v32_apply, val_main_v31_apply,
    val_main_v30_apply, val_main_c_5_apply, val_main_v37_apply, val_main_v36_apply]
  have el : lidx_main_v38 (ix2 r n) k = ix2 r k :=
    funext fun a => Fin.ext (by match a with | ⟨0, _⟩ => rfl | ⟨1, _⟩ => rfl)
  have ei : idx_main_v33 (idx_main_v34 (lidx_main_v38 (ix2 r n) k)) = ix1 r :=
    funext fun a => Fin.ext (by match a with | ⟨0, _⟩ => rfl)
  have er : idx_main_v36 (idx_main_v37 (ridx_main_v38 (ix2 r n) k)) = ix3 (0 : Fin 8) k n :=
    funext fun a => Fin.ext (by
      have hk := k.isLt
      have hn := n.isLt
      match a with
      | ⟨0, _⟩ => rfl
      | ⟨1, _⟩ => show (k.val * 2048 + n.val) / 2048 % 2048 = k.val; omega
      | ⟨2, _⟩ => show (k.val * 2048 + n.val) % 2048 = n.val; omega)
  rw [ei, er, el]
  rfl

/-- Expert 1: the tokens masked by "routed to 1" against the expert's matrix, at an entry. -/
theorem expert_1 (r : Fin 8192) (n : Fin 2048) :
    val_main_v48 (F := Ideal) x0 x1 x2 x3 x4 x5 (ix2 r n) = contrib x0 x5 (val_main_v28 (F := Ideal) x1 x2 x3 x4) 1 r n := by
  rw [val_main_v48_apply]
  unfold contrib
  refine Finset.sum_congr rfl fun k _ => ?_
  rw [val_main_v45_apply, val_main_v44_apply, val_main_v43_apply, val_main_v42_apply, val_main_v41_apply,
    val_main_v40_apply, val_main_c_6_apply, val_main_v47_apply, val_main_v46_apply]
  have el : lidx_main_v48 (ix2 r n) k = ix2 r k :=
    funext fun a => Fin.ext (by match a with | ⟨0, _⟩ => rfl | ⟨1, _⟩ => rfl)
  have ei : idx_main_v43 (idx_main_v44 (lidx_main_v48 (ix2 r n) k)) = ix1 r :=
    funext fun a => Fin.ext (by match a with | ⟨0, _⟩ => rfl)
  have er : idx_main_v46 (idx_main_v47 (ridx_main_v48 (ix2 r n) k)) = ix3 (1 : Fin 8) k n :=
    funext fun a => Fin.ext (by
      have hk := k.isLt
      have hn := n.isLt
      match a with
      | ⟨0, _⟩ => rfl
      | ⟨1, _⟩ => show (k.val * 2048 + n.val) / 2048 % 2048 = k.val; omega
      | ⟨2, _⟩ => show (k.val * 2048 + n.val) % 2048 = n.val; omega)
  rw [ei, er, el]
  rfl

/-- Expert 2: the tokens masked by "routed to 2" against the expert's matrix, at an entry. -/
theorem expert_2 (r : Fin 8192) (n : Fin 2048) :
    val_main_v58 (F := Ideal) x0 x1 x2 x3 x4 x5 (ix2 r n) = contrib x0 x5 (val_main_v28 (F := Ideal) x1 x2 x3 x4) 2 r n := by
  rw [val_main_v58_apply]
  unfold contrib
  refine Finset.sum_congr rfl fun k _ => ?_
  rw [val_main_v55_apply, val_main_v54_apply, val_main_v53_apply, val_main_v52_apply, val_main_v51_apply,
    val_main_v50_apply, val_main_c_7_apply, val_main_v57_apply, val_main_v56_apply]
  have el : lidx_main_v58 (ix2 r n) k = ix2 r k :=
    funext fun a => Fin.ext (by match a with | ⟨0, _⟩ => rfl | ⟨1, _⟩ => rfl)
  have ei : idx_main_v53 (idx_main_v54 (lidx_main_v58 (ix2 r n) k)) = ix1 r :=
    funext fun a => Fin.ext (by match a with | ⟨0, _⟩ => rfl)
  have er : idx_main_v56 (idx_main_v57 (ridx_main_v58 (ix2 r n) k)) = ix3 (2 : Fin 8) k n :=
    funext fun a => Fin.ext (by
      have hk := k.isLt
      have hn := n.isLt
      match a with
      | ⟨0, _⟩ => rfl
      | ⟨1, _⟩ => show (k.val * 2048 + n.val) / 2048 % 2048 = k.val; omega
      | ⟨2, _⟩ => show (k.val * 2048 + n.val) % 2048 = n.val; omega)
  rw [ei, er, el]
  rfl

/-- Expert 3: the tokens masked by "routed to 3" against the expert's matrix, at an entry. -/
theorem expert_3 (r : Fin 8192) (n : Fin 2048) :
    val_main_v68 (F := Ideal) x0 x1 x2 x3 x4 x5 (ix2 r n) = contrib x0 x5 (val_main_v28 (F := Ideal) x1 x2 x3 x4) 3 r n := by
  rw [val_main_v68_apply]
  unfold contrib
  refine Finset.sum_congr rfl fun k _ => ?_
  rw [val_main_v65_apply, val_main_v64_apply, val_main_v63_apply, val_main_v62_apply, val_main_v61_apply,
    val_main_v60_apply, val_main_c_8_apply, val_main_v67_apply, val_main_v66_apply]
  have el : lidx_main_v68 (ix2 r n) k = ix2 r k :=
    funext fun a => Fin.ext (by match a with | ⟨0, _⟩ => rfl | ⟨1, _⟩ => rfl)
  have ei : idx_main_v63 (idx_main_v64 (lidx_main_v68 (ix2 r n) k)) = ix1 r :=
    funext fun a => Fin.ext (by match a with | ⟨0, _⟩ => rfl)
  have er : idx_main_v66 (idx_main_v67 (ridx_main_v68 (ix2 r n) k)) = ix3 (3 : Fin 8) k n :=
    funext fun a => Fin.ext (by
      have hk := k.isLt
      have hn := n.isLt
      match a with
      | ⟨0, _⟩ => rfl
      | ⟨1, _⟩ => show (k.val * 2048 + n.val) / 2048 % 2048 = k.val; omega
      | ⟨2, _⟩ => show (k.val * 2048 + n.val) % 2048 = n.val; omega)
  rw [ei, er, el]
  rfl

/-- Expert 4: the tokens masked by "routed to 4" against the expert's matrix, at an entry. -/
theorem expert_4 (r : Fin 8192) (n : Fin 2048) :
    val_main_v78 (F := Ideal) x0 x1 x2 x3 x4 x5 (ix2 r n) = contrib x0 x5 (val_main_v28 (F := Ideal) x1 x2 x3 x4) 4 r n := by
  rw [val_main_v78_apply]
  unfold contrib
  refine Finset.sum_congr rfl fun k _ => ?_
  rw [val_main_v75_apply, val_main_v74_apply, val_main_v73_apply, val_main_v72_apply, val_main_v71_apply,
    val_main_v70_apply, val_main_c_9_apply, val_main_v77_apply, val_main_v76_apply]
  have el : lidx_main_v78 (ix2 r n) k = ix2 r k :=
    funext fun a => Fin.ext (by match a with | ⟨0, _⟩ => rfl | ⟨1, _⟩ => rfl)
  have ei : idx_main_v73 (idx_main_v74 (lidx_main_v78 (ix2 r n) k)) = ix1 r :=
    funext fun a => Fin.ext (by match a with | ⟨0, _⟩ => rfl)
  have er : idx_main_v76 (idx_main_v77 (ridx_main_v78 (ix2 r n) k)) = ix3 (4 : Fin 8) k n :=
    funext fun a => Fin.ext (by
      have hk := k.isLt
      have hn := n.isLt
      match a with
      | ⟨0, _⟩ => rfl
      | ⟨1, _⟩ => show (k.val * 2048 + n.val) / 2048 % 2048 = k.val; omega
      | ⟨2, _⟩ => show (k.val * 2048 + n.val) % 2048 = n.val; omega)
  rw [ei, er, el]
  rfl

/-- Expert 5: the tokens masked by "routed to 5" against the expert's matrix, at an entry. -/
theorem expert_5 (r : Fin 8192) (n : Fin 2048) :
    val_main_v88 (F := Ideal) x0 x1 x2 x3 x4 x5 (ix2 r n) = contrib x0 x5 (val_main_v28 (F := Ideal) x1 x2 x3 x4) 5 r n := by
  rw [val_main_v88_apply]
  unfold contrib
  refine Finset.sum_congr rfl fun k _ => ?_
  rw [val_main_v85_apply, val_main_v84_apply, val_main_v83_apply, val_main_v82_apply, val_main_v81_apply,
    val_main_v80_apply, val_main_c_10_apply, val_main_v87_apply, val_main_v86_apply]
  have el : lidx_main_v88 (ix2 r n) k = ix2 r k :=
    funext fun a => Fin.ext (by match a with | ⟨0, _⟩ => rfl | ⟨1, _⟩ => rfl)
  have ei : idx_main_v83 (idx_main_v84 (lidx_main_v88 (ix2 r n) k)) = ix1 r :=
    funext fun a => Fin.ext (by match a with | ⟨0, _⟩ => rfl)
  have er : idx_main_v86 (idx_main_v87 (ridx_main_v88 (ix2 r n) k)) = ix3 (5 : Fin 8) k n :=
    funext fun a => Fin.ext (by
      have hk := k.isLt
      have hn := n.isLt
      match a with
      | ⟨0, _⟩ => rfl
      | ⟨1, _⟩ => show (k.val * 2048 + n.val) / 2048 % 2048 = k.val; omega
      | ⟨2, _⟩ => show (k.val * 2048 + n.val) % 2048 = n.val; omega)
  rw [ei, er, el]
  rfl

/-- Expert 6: the tokens masked by "routed to 6" against the expert's matrix, at an entry. -/
theorem expert_6 (r : Fin 8192) (n : Fin 2048) :
    val_main_v98 (F := Ideal) x0 x1 x2 x3 x4 x5 (ix2 r n) = contrib x0 x5 (val_main_v28 (F := Ideal) x1 x2 x3 x4) 6 r n := by
  rw [val_main_v98_apply]
  unfold contrib
  refine Finset.sum_congr rfl fun k _ => ?_
  rw [val_main_v95_apply, val_main_v94_apply, val_main_v93_apply, val_main_v92_apply, val_main_v91_apply,
    val_main_v90_apply, val_main_c_11_apply, val_main_v97_apply, val_main_v96_apply]
  have el : lidx_main_v98 (ix2 r n) k = ix2 r k :=
    funext fun a => Fin.ext (by match a with | ⟨0, _⟩ => rfl | ⟨1, _⟩ => rfl)
  have ei : idx_main_v93 (idx_main_v94 (lidx_main_v98 (ix2 r n) k)) = ix1 r :=
    funext fun a => Fin.ext (by match a with | ⟨0, _⟩ => rfl)
  have er : idx_main_v96 (idx_main_v97 (ridx_main_v98 (ix2 r n) k)) = ix3 (6 : Fin 8) k n :=
    funext fun a => Fin.ext (by
      have hk := k.isLt
      have hn := n.isLt
      match a with
      | ⟨0, _⟩ => rfl
      | ⟨1, _⟩ => show (k.val * 2048 + n.val) / 2048 % 2048 = k.val; omega
      | ⟨2, _⟩ => show (k.val * 2048 + n.val) % 2048 = n.val; omega)
  rw [ei, er, el]
  rfl

/-- Expert 7: the tokens masked by "routed to 7" against the expert's matrix, at an entry. -/
theorem expert_7 (r : Fin 8192) (n : Fin 2048) :
    val_main_v108 (F := Ideal) x0 x1 x2 x3 x4 x5 (ix2 r n) = contrib x0 x5 (val_main_v28 (F := Ideal) x1 x2 x3 x4) 7 r n := by
  rw [val_main_v108_apply]
  unfold contrib
  refine Finset.sum_congr rfl fun k _ => ?_
  rw [val_main_v105_apply, val_main_v104_apply, val_main_v103_apply, val_main_v102_apply, val_main_v101_apply,
    val_main_v100_apply, val_main_c_12_apply, val_main_v107_apply, val_main_v106_apply]
  have el : lidx_main_v108 (ix2 r n) k = ix2 r k :=
    funext fun a => Fin.ext (by match a with | ⟨0, _⟩ => rfl | ⟨1, _⟩ => rfl)
  have ei : idx_main_v103 (idx_main_v104 (lidx_main_v108 (ix2 r n) k)) = ix1 r :=
    funext fun a => Fin.ext (by match a with | ⟨0, _⟩ => rfl)
  have er : idx_main_v106 (idx_main_v107 (ridx_main_v108 (ix2 r n) k)) = ix3 (7 : Fin 8) k n :=
    funext fun a => Fin.ext (by
      have hk := k.isLt
      have hn := n.isLt
      match a with
      | ⟨0, _⟩ => rfl
      | ⟨1, _⟩ => show (k.val * 2048 + n.val) / 2048 % 2048 = k.val; omega
      | ⟨2, _⟩ => show (k.val * 2048 + n.val) % 2048 = n.val; omega)
  rw [ei, er, el]
  rfl

/-- The running total after the eighth expert is the sum of the eight contributions. -/
theorem total_apply (r : Fin 8192) (n : Fin 2048) :
    val_main_v109 (F := Ideal) x0 x1 x2 x3 x4 x5 (ix2 r n) = moe x0 x5 (val_main_v28 (F := Ideal) x1 x2 x3 x4) (ix2 r n) := by
  rw [moe_chain, val_main_v109_apply, val_main_v99_apply, val_main_v89_apply, val_main_v79_apply, val_main_v69_apply,
    val_main_v59_apply, val_main_v49_apply, val_main_v39_apply, val_main_v29_apply, val_main_cst_apply,
    expert_0, expert_1, expert_2, expert_3, expert_4, expert_5, expert_6, expert_7]
  simp only [Ideal.addf_def, Ideal.ofBits_def, Ideal.ofBits_zero_f32]

/-- The reference's result array is the specification's function of its arguments. -/
theorem total_eq : val_main_v109 (F := Ideal) x0 x1 x2 x3 x4 x5 = moe x0 x5 (val_main_v28 (F := Ideal) x1 x2 x3 x4) := by
  funext j
  obtain ⟨r, n, rfl⟩ : ∃ (r : Fin 8192) (n : Fin 2048), j = ix2 r n := ⟨j 0, j 1, eq_ix2 j⟩
  exact total_apply x0 x1 x2 x3 x4 x5 r n

end Cert.Moe.Ref

end
-- ==== Proof.Entry.lean ====
/-
  What the kernel's region finds at its entry, in terms of the program's arguments.

  Before the region the program turns the packed four-bit weights, their scales, zero points and group numbers into the
  experts' matrices, narrows the tokens and the matrices to a sixteen-bit format (no change of value over the extended
  reals), and writes the tokens' expert numbers as a column. So the tokens the region finds are the argument's, the expert
  number of token `r` is the argument's entry `r`, and the matrices are the very expression the reference computes for its
  own matrices: the same operations on the same arguments, in the same order.
-/
import proofs.«406548_j71141838291320_1_alg».proof.Proof.Gen.KernelIdeal.Frame
import proofs.«406548_j71141838291320_1_alg».proof.Proof.Gen.ReferenceIdeal.Read
import proofs.«406548_j71141838291320_1_alg».proof.Proof.Accum
import Idealize.ShloMosaic.Lib.Pipeline.Value
import Idealize.ShloMosaic.Lib.StableHlo.Run
import Idealize.ShloMosaic.Lib.ValueIdx

noncomputable section

namespace Cert.Moe.Entry

open Cert.KernelIdeal Cert.KernelIdeal.Gen Idealize.ShloMosaic Idealize.ShloMosaic.TcCoe Idealize.ShloMosaic.ValueIdx
open Idealize.SL.Sem Idealize.ShloMosaic.StableHlo Cert.Moe

variable (m : (ℓ : Loc nD τ sig) → Buf (Elt Ideal) ℓ)

/-- The tokens: the argument, narrowed, which over the extended reals is the argument. -/
theorem tok_eq (c : Dev nD) : (V m c main_v30 : S8192x2048.Idx → EReal) = m ((c : Thread nD τ).loc main_arg0) := by
  dsimp only [V, hostOps0]; after_results; rfl

/-- The expert numbers: the argument laid out as a column. -/
theorem ids_eq (c : Dev nD) : (V m c main_v31 : S8192x1.Idx → BitVec 32)
    = shapeCast S8192x1 (m ((c : Thread nD τ).loc main_arg5)) shapeCasts_S8192_S8192x1 := by
  dsimp only [V, hostOps0]; after_results; rfl

/-- Row `r` of that column is the argument's entry `r`. -/
theorem ids_col (c : Dev nD) :
    (fun j : Ids.Idx => (V m c main_v31 : S8192x1.Idx → BitVec 32) (ix2 (j 0) (0 : Fin 1))) = m ((c : Thread nD τ).loc main_arg5) := by
  rw [ids_eq]
  funext j
  refine shapeCast_apply _ shapeCasts_S8192_S8192x1 (ix2 (j 0) (0 : Fin 1)) j ?_
  rw [Shape.rowMajor_val_one, Shape.rowMajor_val_two]
  show (j 0).val = (j 0).val * 1 + 0
  omega

set_option maxRecDepth 8192 in
set_option maxHeartbeats 4000000 in
/-- The experts' matrices: the reference's own expression for them, of the same arguments. -/
theorem w_eq (c : Dev nD) : (V m c main_v29 : S8x2048x2048.Idx → EReal)
    = Cert.ReferenceIdeal.Read.val_main_v28 (F := Ideal) (m ((c : Thread nD τ).loc main_arg1)) (m ((c : Thread nD τ).loc main_arg2))
        (m ((c : Thread nD τ).loc main_arg3)) (m ((c : Thread nD τ).loc main_arg4)) := by
  dsimp only [V, hostOps0]
  after_results_simp
  rfl

/-- The kernel's result array as the specification's function of the program's arguments. -/
theorem result_eq (c : Dev nD) : Accum.result m c
    = moe (m ((c : Thread nD τ).loc main_arg0)) (m ((c : Thread nD τ).loc main_arg5))
        (Cert.ReferenceIdeal.Read.val_main_v28 (F := Ideal) (m ((c : Thread nD τ).loc main_arg1)) (m ((c : Thread nD τ).loc main_arg2))
          (m ((c : Thread nD τ).loc main_arg3)) (m ((c : Thread nD τ).loc main_arg4))) :=
  congr (congr (congrArg moe (tok_eq m c)) (ids_col m c)) (w_eq m c)

end Cert.Moe.Entry

end
-- ==== Proof.lean ====
/-
  The certificate of a mixture-of-experts product over int4-quantized weights.

  The result's row `r` is the token `r` times the matrix of the expert the token is routed to; both programs get it
  without a gather, as the sum over the eight experts `e` of (token `r` gated by "routed to `e`") times the matrix of `e`,
  the matrices dequantized by one and the same expression of the packed weights, scales, zero points and group numbers.

  The kernel tiles the result in 512 × 1024 blocks and visits, for each block, the eight experts in order, adding each
  expert's product of the gated 512 × 2048 token block with the expert's 2048 × 1024 weight block into an accumulator that
  it clears at the first expert and copies out at the last (Pieces, Payload, Blocks, Accum). The reference adds the eight
  whole products to a zero array in the same order (RefValue). Entry by entry both are the eight contributions added in
  order from zero (Spec), over the same tokens, expert numbers and matrices (Entry). The one law of the extended reals used
  is that zero is neutral for addition, which holds at the infinities too, so the precondition is not opened.
-/
import proofs.«406548_j71141838291320_1_alg».proof.Defs
import proofs.«406548_j71141838291320_1_alg».proof.Proof.Gen.Kernel
import proofs.«406548_j71141838291320_1_alg».proof.Proof.Gen.Kernel.Skeleton
import proofs.«406548_j71141838291320_1_alg».proof.Proof.Gen.Kernel.Launch
import proofs.«406548_j71141838291320_1_alg».proof.Proof.Gen.Kernel.Points
import proofs.«406548_j71141838291320_1_alg».proof.Proof.Gen.Kernel.Frame
import proofs.«406548_j71141838291320_1_alg».proof.Proof.Gen.KernelIdeal
import proofs.«406548_j71141838291320_1_alg».proof.Proof.Gen.KernelIdeal.Skeleton
import proofs.«406548_j71141838291320_1_alg».proof.Proof.Gen.KernelIdeal.Launch
import proofs.«406548_j71141838291320_1_alg».proof.Proof.Gen.KernelIdeal.Points
import proofs.«406548_j71141838291320_1_alg».proof.Proof.Gen.KernelIdeal.Frame
import proofs.«406548_j71141838291320_1_alg».proof.Proof.Gen.ReferenceIdeal
import proofs.«406548_j71141838291320_1_alg».proof.Proof.Gen.Pre_finite_inputs
import proofs.«406548_j71141838291320_1_alg».proof.Proof.Gen.KernelIdeal.Value
import proofs.«406548_j71141838291320_1_alg».proof.Proof.Gen.ReferenceIdeal.Run
import proofs.«406548_j71141838291320_1_alg».proof.Proof.Gen.ReferenceIdeal.Read
import proofs.«406548_j71141838291320_1_alg».proof.Proof.Accum
import proofs.«406548_j71141838291320_1_alg».proof.Proof.RefValue
import proofs.«406548_j71141838291320_1_alg».proof.Proof.Entry
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- Over the extended reals, from arguments that agree, both programs end with the eight experts' contributions
    added in order, entry by entry, of the same tokens, expert numbers and dequantized matrices. -/
theorem algebraic : Cert.algebraic_KernelIdeal_ReferenceIdeal := by
  intro m ρ m' ρ' _ hagree
  refine ⟨fun c => Cert.Moe.Accum.result m c, Cert.Moe.Accum.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v109_eq, Cert.Moe.Ref.total_eq, a0, a1, a2, a3, a4, a5]
  exact (Cert.Moe.Entry.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
